-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x1024 .f32) (main_arg8 : FVec F S1 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1024 .f32) (main_arg5 : FVec F S64x1024 .f32) (main_arg6 : FVec F S64 .f32) (main_arg7 : FVec F S1x1024 .f32) (main_arg8 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8192x4096 .f32) (main_arg1 : FVec F S1024x4096 .f32) (main_arg2 : FVec F S1024 .f32) (main_arg3 : FVec F S1024x1024 .f32) (main_arg4 : FVec F S1024 .f32) (main_arg5 : FVec F S64x1024 .f32) (main_arg6 : FVec F S64 .f32) (main_arg7 : FVec F S1x1024 .f32) (main_arg8 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S1x64 : Shape := ⟨2, ![1, 64]⟩
abbrev S1x1 : Shape := ⟨2, ![1, 1]⟩
abbrev S8192x64 : Shape := ⟨2, ![8192, 64]⟩
abbrev S8192x1 : Shape := ⟨2, ![8192, 1]⟩
abbrev S512x4096 : Shape := ⟨2, ![512, 4096]⟩
abbrev S512x64 : Shape := ⟨2, ![512, 64]⟩
abbrev S512x1 : Shape := ⟨2, ![512, 1]⟩
abbrev S512x1024 : Shape := ⟨2, ![512, 1024]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S64, .f32⟩
  | .hbm, ⟨7, _⟩ => ⟨S1x1024, .f32⟩
  | .hbm, ⟨8, _⟩ => ⟨S1, .f32⟩
  | .hbm, ⟨9, _⟩ => ⟨S1024x4096, .bf16⟩
  | .hbm, ⟨10, _⟩ => ⟨S1024x1024, .bf16⟩
  | .hbm, ⟨11, _⟩ => ⟨S64x1024, .bf16⟩
  | .hbm, ⟨12, _⟩ => ⟨S1x1024, .f32⟩
  | .hbm, ⟨13, _⟩ => ⟨S1x1024, .f32⟩
  | .hbm, ⟨14, _⟩ => ⟨S1x64, .f32⟩
  | .hbm, ⟨15, _⟩ => ⟨S1x1, .f32⟩
  | .hbm, ⟨16, _⟩ => ⟨S8192x64, .f32⟩
  | .hbm, ⟨17, _⟩ => ⟨S8192x1, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S64x1024, .bf16⟩
  | .local _ .vmem, ⟨7, _⟩ => ⟨S1x64, .f32⟩
  | .local _ .vmem, ⟨8, _⟩ => ⟨S1x1024, .f32⟩
  | .local _ .vmem, ⟨9, _⟩ => ⟨S1x1, .f32⟩
  | .local _ .vmem, ⟨10, _⟩ => ⟨S512x64, .f32⟩
  | .local _ .vmem, ⟨11, _⟩ => ⟨S512x64, .f32⟩
  | .local _ .vmem, ⟨12, _⟩ => ⟨S512x1, .f32⟩
  | .local _ .vmem, ⟨13, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S1024_S1x1024 : S1024.ShapeCasts S1x1024
  shapeCasts_S64_S1x64 : S64.ShapeCasts S1x64
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  reduces_S512x1024_S512 : S512x1024.Reduces [1] S512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x4096_S1024x4096_S512x1024_1_1_0_0_n_n_wf : DotDims.WF S512x4096 S1024x4096 S512x1024 [1] [1] [0] [0] [] []
  dot_S512x1024_S1024x1024_S512x1024_1_1_0_0_n_n_wf : DotDims.WF S512x1024 S1024x1024 S512x1024 [1] [1] [0] [0] [] []
  dot_S512x1024_S64x1024_S512x64_1_1_0_0_n_n_wf : DotDims.WF S512x1024 S64x1024 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .bf16 = 32 ∨ (Rect.block (s := S64x1024) S64x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S8192x64.size a
  hwx0_9 : ∀ i : grid0.Coords, EltTy.bits .f32 = 32 ∨ (Rect.block (s := S8192x64) S512x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S8192x1.size a
  hwx0_10 : ∀ i : grid0.Coords, EltTy.bits .f32 = 32 ∨ (Rect.block (s := S8192x1) S512x1.size (cc0_transform_10 i) (hinb0_10 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S512x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S4096x1024 : Shape := ⟨2, ![4096, 1024]⟩
abbrev S8192x1024 : Shape := ⟨2, ![8192, 1024]⟩
abbrev S_ : Shape := ⟨0, ![]⟩
abbrev S1024x64 : Shape := ⟨2, ![1024, 64]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩
abbrev S1024x1 : Shape := ⟨2, ![1024, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S64, .f32⟩
  | .hbm, ⟨7, _⟩ => ⟨S1x1024, .f32⟩
  | .hbm, ⟨8, _⟩ => ⟨S1, .f32⟩
  | .hbm, ⟨9, _⟩ => ⟨S4096x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1024x64, .f32⟩
  | .hbm, ⟨26, _⟩ => ⟨S8192x64, .f32⟩
  | .hbm, ⟨27, _⟩ => ⟨S1x64, .f32⟩
  | .hbm, ⟨28, _⟩ => ⟨S8192x64, .f32⟩
  | .hbm, ⟨29, _⟩ => ⟨S8192x64, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x64, .f32⟩
  | .hbm, ⟨43, _⟩ => ⟨S8192x64, .f32⟩
  | .hbm, ⟨44, _⟩ => ⟨S1024x1, .f32⟩
  | .hbm, ⟨45, _⟩ => ⟨S8192x1, .f32⟩
  | .hbm, ⟨46, _⟩ => ⟨S1x1, .f32⟩
  | .hbm, ⟨47, _⟩ => ⟨S8192x1, .f32⟩
  | .hbm, ⟨48, _⟩ => ⟨S8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  transposes_S64x1024_S1024x64_1_0 : S64x1024.Transposes [1, 0] S1024x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S1x1024_S1024x1_1_0 : S1x1024.Transposes [1, 0] S1024x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x4096_S4096x1024_S8192x1024_1_0_0_1_n_n_wf : DotDims.WF S8192x4096 S4096x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x64_S8192x64_1_0_0_1_n_n_wf : DotDims.WF S8192x1024 S1024x64 S8192x64 [1] [0] [0] [1] [] []
  dot_S8192x1024_S1024x1_S8192x1_1_0_0_1_n_n_wf : DotDims.WF S8192x1024 S1024x1 S8192x1 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf

class Facts : Prop extends Facts₀ where

variable [Facts]
-- ==== Proof.Spec.lean ====
/-
  The router network, one row at a time, on the extended reals.

  A row `x` of the state goes through two dense layers with a rectifier, `h = relu (W₂ · relu (W₁ · x + b₁) + b₂)`;
  the expert weights of the row are the softmax of `Wₑ · h + bₑ`, written as both programs compute it — the
  exponentials of the logits less their maximum, each divided by their sum — and the value of the row is
  `Wᵥ · h + bᵥ`. A dense layer's entry `j` is `∑ q, h q * W j q + b j`: the weight matrices are stored with the
  output unit as the row, so the contraction runs over the columns of both operands.

  The two float words that occur, zero and minus infinity, are kept as words: both programs hold the same words, so
  what they denote is never needed, except that the zero word is `0` where a sum starts from it.

  The arrays enter through `mat`, `vec` and `rowOf`, which read a rank-2 array as a matrix, a rank-1 array as a
  vector, and one row of a rank-2 array; `expertWeights` and `stateValue` are the two result arrays as functions of
  the nine argument arrays, index by index.
-/
import Idealize.ShloMosaic.PureOps.Ideal.Laws
import Idealize.ShloMosaic.Lib.ValueIdx
import Mathlib.Data.Finset.Fold

noncomputable section

open scoped BigOperators

namespace Cert.Router

open Idealize.ShloMosaic Idealize.ShloMosaic.ValueIdx

/-- The f32 word of zero, read on the extended reals. -/
abbrev zeroW : EReal := Ideal.ofBits .f32 0x00000000#32
/-- The f32 word of minus infinity, read on the extended reals. -/
abbrev negInfW : EReal := Ideal.ofBits .f32 0xFF800000#32

/-- A rank-2 array as a matrix. -/
def mat {n k : ℕ} (a : (⟨2, ![n, k]⟩ : Shape).Idx → EReal) : Fin n → Fin k → EReal := fun p q => a (ix2 p q)
/-- A rank-1 array as a vector. -/
def vec {n : ℕ} (a : (⟨1, ![n]⟩ : Shape).Idx → EReal) : Fin n → EReal := fun p => a (ix1 p)
/-- Row `r` of a rank-2 array. -/
def rowOf {n k : ℕ} (a : (⟨2, ![n, k]⟩ : Shape).Idx → EReal) (r : Fin n) : Fin k → EReal := fun q => a (ix2 r q)

/-- Entry `j` of a dense layer: the row `j` of the weights against the input, plus the bias. -/
def dense {n k : ℕ} (W : Fin n → Fin k → EReal) (b : Fin n → EReal) (h : Fin k → EReal) (j : Fin n) : EReal :=
  (∑ q : Fin k, h q * W j q) + b j

/-- The rectifier: the maximum with the zero word. -/
def relu (x : EReal) : EReal := max x zeroW

/-- The second hidden layer of a row. -/
def hidden (W1 : Fin 1024 → Fin 4096 → EReal) (b1 : Fin 1024 → EReal) (W2 : Fin 1024 → Fin 1024 → EReal)
    (b2 : Fin 1024 → EReal) (x : Fin 4096 → EReal) (j : Fin 1024) : EReal :=
  relu (dense W2 b2 (fun q => relu (dense W1 b1 x q)) j)

/-- The largest of a row's 64 logits, folded from the minus-infinity word. -/
def rowMax (l : Fin 64 → EReal) : EReal := (Finset.univ : Finset (Fin 64)).fold max negInfW l

/-- The exponential of a logit less the row's maximum. -/
def expShift (l : Fin 64 → EReal) (e : Fin 64) : EReal := Ideal.exp (l e - rowMax l)

/-- The softmax of a row's logits: each shifted exponential over their sum. -/
def softmax (l : Fin 64 → EReal) (e : Fin 64) : EReal := Ideal.div (expShift l e) (∑ e' : Fin 64, expShift l e')

/-- The expert weights of a row. -/
def weightsRow (W1 : Fin 1024 → Fin 4096 → EReal) (b1 : Fin 1024 → EReal) (W2 : Fin 1024 → Fin 1024 → EReal)
    (b2 : Fin 1024 → EReal) (We : Fin 64 → Fin 1024 → EReal) (be : Fin 64 → EReal) (x : Fin 4096 → EReal) (e : Fin 64) : EReal :=
  softmax (dense We be (hidden W1 b1 W2 b2 x)) e

/-- The value of a row. -/
def valueRow (W1 : Fin 1024 → Fin 4096 → EReal) (b1 : Fin 1024 → EReal) (W2 : Fin 1024 → Fin 1024 → EReal)
    (b2 : Fin 1024 → EReal) (Wv : Fin 1 → Fin 1024 → EReal) (bv : Fin 1 → EReal) (x : Fin 4096 → EReal) : EReal :=
  dense Wv bv (hidden W1 b1 W2 b2 x) 0

/-- The first result array: at `(R, e)`, expert `e`'s weight for row `R` of the state. -/
def expertWeights (a0 : (⟨2, ![8192, 4096]⟩ : Shape).Idx → EReal) (a1 : (⟨2, ![1024, 4096]⟩ : Shape).Idx → EReal)
    (a2 : (⟨1, ![1024]⟩ : Shape).Idx → EReal) (a3 : (⟨2, ![1024, 1024]⟩ : Shape).Idx → EReal) (a4 : (⟨1, ![1024]⟩ : Shape).Idx → EReal)
    (a5 : (⟨2, ![64, 1024]⟩ : Shape).Idx → EReal) (a6 : (⟨1, ![64]⟩ : Shape).Idx → EReal) :
    (⟨2, ![8192, 64]⟩ : Shape).Idx → EReal := fun i =>
  weightsRow (mat a1) (vec a2) (mat a3) (vec a4) (mat a5) (vec a6) (rowOf a0 (i 0)) (i 1)

/-- The second result array: at `(R, 0)`, the value of row `R` of the state. -/
def stateValue (a0 : (⟨2, ![8192, 4096]⟩ : Shape).Idx → EReal) (a1 : (⟨2, ![1024, 4096]⟩ : Shape).Idx → EReal)
    (a2 : (⟨1, ![1024]⟩ : Shape).Idx → EReal) (a3 : (⟨2, ![1024, 1024]⟩ : Shape).Idx → EReal) (a4 : (⟨1, ![1024]⟩ : Shape).Idx → EReal)
    (a7 : (⟨2, ![1, 1024]⟩ : Shape).Idx → EReal) (a8 : (⟨1, ![1]⟩ : Shape).Idx → EReal) :
    (⟨2, ![8192, 1]⟩ : Shape).Idx → EReal := fun i =>
  valueRow (mat a1) (vec a2) (mat a3) (vec a4) (mat a7) (vec a8) (rowOf a0 (i 0))

/-- The reference takes the row's maximum once more against the minus-infinity word: that changes nothing, the
    fold already starts from it. -/
theorem max_negInfW_rowMax (l : Fin 64 → EReal) : max negInfW (rowMax l) = rowMax l :=
  max_eq_right ((Finset.le_fold_max negInfW).mpr (Or.inl le_rfl))

/-- A sum started from the zero word is the sum. -/
theorem zeroW_add (s : EReal) : zeroW + s = s := by
  show Ideal.ofBits .f32 0x00000000#32 + s = s
  rw [Ideal.ofBits_zero_f32, zero_add]

end Cert.Router

end
-- ==== Proof.LibMatmulNT.lean ====
/-
  A matrix product against the TRANSPOSE of its right operand, read at an entry, at the ideal values.

  For dimension numbers that contract the columns of both operands, with no batch axis —
  `[M, K] · [N, K]ᵀ → [M, N]`, a dense layer whose weights are stored with the output unit as the row — the
  product into a zero accumulator has, at row `o` and column `t`, the entry `∑ c, A[o, c] · B[t, c]`. The
  contraction's index set has one axis; the sum over it is re-indexed by that axis's coordinate.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : ℕ} (D : DotDims ⟨2, ![M, K]⟩ ⟨2, ![N, K]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's ROW is the result's column. -/
theorem rhs_row (hb : D.rhsBatch = []) (hlb : D.lhsBatch = []) (hln : D.lhsNonContracting = [0]) (hn : D.rhsNonContracting = [0])
    (i : (⟨2, ![M, N]⟩ : Shape).Idx) (q : D.contr.Idx) :
    (D.rhsIdx i q 0).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY: row `o` of the left operand against row `t` of the right one. -/
theorem matmul_zero_at {φ₁ φ₂ : FTy} (hlc : D.lhsContracting = [1]) (hrc : D.rhsContracting = [1]) (hlb : D.lhsBatch = [])
    (hrb : D.rhsBatch = []) (hln : D.lhsNonContracting = [0]) (hrn : D.rhsNonContracting = [0])
    (prec : Option ContractPrecision) (A : FVec Ideal ⟨2, ![M, K]⟩ φ₁) (B : FVec Ideal ⟨2, ![N, K]⟩ φ₂) (o : Fin M) (t : Fin N) :
    FloatOps.matmul D prec A B (constant ⟨2, ![M, N]⟩ .f32 0x00000000#32) (ix2 o t) = ∑ c : Fin K, A (ix2 o c) * B (ix2 t c) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 t k :=
    funext fun a => Fin.ext (by
      match a with
      | ⟨0, _⟩ => exact rhs_row D hrb hlb hln hrn _ _
      | ⟨1, _⟩ => exact (D.rhsIdx_val_of_single hrc _ _).trans hk)
  rw [el, er]

end Cert.LibMatmulNT

end
-- ==== Proof.LibRowReduce.lean ====
/-
  A matrix reduced along its rows and the result laid back over the rows, read at an entry.

  A kernel that takes a row's sum or maximum `keepdims`-style does four things to an `[a, b]` matrix: it reduces over
  the columns into an `[a]` vector, recasts that as an `[a, 1]` column, and broadcasts the column to `[a, b]`. Read at
  an entry these are: the column cast at `(p, 0)` is the vector at `p`; the column broadcast at `(p, c)` is the column
  at `(p, 0)`; and at the ideal values the sum over the columns at `p` is `∑ c, v (p, c)`, the maximum the fold of
  `max` over `c` from the accumulator's word.
-/
import Idealize.ShloMosaic.PureOps.Ideal.Laws
import Idealize.ShloMosaic.Lib.ValueLayout

noncomputable section

open scoped BigOperators

namespace Cert.LibRowReduce

open Idealize.ShloMosaic Idealize.ShloMosaic.ValueIdx

variable {α : Type}

/-- An `[a]` vector cast to an `[a, 1]` column reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` with column `c` put back on the reduced axis. -/
theorem lift_cols {a b : ℕ} (h : (⟨2, ![a, b]⟩ : Shape).Reduces [1] ⟨1, ![a]⟩) (p : Fin a) (c : Fin b) :
    h.lift (ix1 p) c = ix2 p c :=
  funext fun ax => Fin.ext (by
    match ax with
    | ⟨0, _⟩ => rfl
    | ⟨1, _⟩ => rfl)

/-- At the ideal values the sum over the columns, at row `p`, is the sum of the row's entries. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ c : Fin b, v (ix2 p c) := by
  rw [Ideal.multiReduction_add_single]
  exact Finset.sum_congr rfl fun c _ => congrArg v (lift_cols h p c)

/-- At the ideal values the maximum over the columns, at row `p`, is the fold of `max` over the row's entries from the
    accumulator's word. -/
theorem rowMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun c => v (ix2 p c)) := by
  rw [Ideal.multiReduction_maximumf_single]
  have e : (v ∘ h.lift (ix1 p)) = fun c => v (ix2 p c) := funext fun c => congrArg v (lift_cols h p c)
  rw [e]
  rfl

end Cert.LibRowReduce

end
-- ==== Proof.KernelRows.lean ====
/-
  The kernel body's three stored values, read at an entry, are the specification of that entry's row.

  The body works on a block of 512 rows of the state. Its values are vector expressions over the loaded blocks; read
  at row `r` they depend on row `r` of the state block only, and on the weights and biases whole:
  * a dense layer with the rectifier, as the body writes it — the product against the transposed weights into a zero
    accumulator, plus the bias row broadcast down the rows, maximum with the zero word — is at `(r, j)` the
    rectified `dense` entry `j` of row `r` (`reluDense_at`); a change of float format is the identity on the
    extended reals, and a cast to the same shape is the identity;
  * the softmax as the body writes it — the row maximum and the row sum taken `keepdims`-style — is at `(r, e)` the
    `softmax` of row `r` of the logits (`softmaxVec_at`);
  * the value head, a multiply by the weight row and a sum along the row, is a `dense` entry (`headVec_at`).
-/
import proofs.«150308_g3590592660266_cont_8to1_b_809_4_alg».proof.Proof.Gen.KernelIdeal.Skeleton
import proofs.«150308_g3590592660266_cont_8to1_b_809_4_alg».proof.Proof.Spec
import proofs.«150308_g3590592660266_cont_8to1_b_809_4_alg».proof.Proof.LibMatmulNT
import proofs.«150308_g3590592660266_cont_8to1_b_809_4_alg».proof.Proof.LibRowReduce

noncomputable section

open scoped BigOperators

namespace Cert.Router.Kernel

open Idealize.ShloMosaic Idealize.ShloMosaic.TcCoe Idealize.SL.Sem Idealize.ShloMosaic.ValueIdx
open Cert.Router Cert.LibRowReduce

/-- A dense layer with the rectifier on a block of rows, at an entry. -/
theorem reluDense_at {M K N : ℕ} {φ₁ φ₂ : FTy} (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0])
    (A : FVec Ideal ⟨2, ![M, K]⟩ φ₁) (B : FVec Ideal ⟨2, ![N, K]⟩ φ₂) (bias : FVec Ideal ⟨2, ![1, N]⟩ .f32)
    (hb : (⟨2, ![1, N]⟩ : Shape).Broadcasts ⟨2, ![M, N]⟩) (r : Fin M) (j : Fin N) :
    maximumf (addf (matmul D none A B (constant (F := Ideal) ⟨2, ![M, N]⟩ .f32 0x00000000#32)) (broadcastTo ⟨2, ![M, N]⟩ bias hb))
        (broadcast ⟨2, ![M, N]⟩ (Scalar.ofBits (F := Ideal) .f32 0x00000000#32)) (ix2 r j)
      = relu (dense (mat B) (rowOf bias 0) (rowOf A r) j) := by
  show max (FloatOps.matmul D none A B (constant (F := Ideal) ⟨2, ![M, N]⟩ .f32 0x00000000#32) (ix2 r j)
      + broadcastTo ⟨2, ![M, N]⟩ bias hb (ix2 r j)) zeroW
    = max ((∑ q : Fin K, A (ix2 r q) * B (ix2 j q)) + bias (ix2 0 j)) zeroW
  rw [LibMatmulNT.matmul_zero_at D hlc hrc hlb hrb hln hrn, broadcastTo_1b_ab_apply]

/-- A dense layer without the rectifier on a block of rows, at an entry. -/
theorem dense_at {M K N : ℕ} {φ₁ φ₂ : FTy} (D : DotDims ⟨2, ![M, K]⟩ ⟨2, ![N, K]⟩ ⟨2, ![M, N]⟩)
    (hlc : D.lhsContracting = [1]) (hrc : D.rhsContracting = [1]) (hlb : D.lhsBatch = []) (hrb : D.rhsBatch = [])
    (hln : D.lhsNonContracting = [0]) (hrn : D.rhsNonContracting = [0])
    (A : FVec Ideal ⟨2, ![M, K]⟩ φ₁) (B : FVec Ideal ⟨2, ![N, K]⟩ φ₂) (bias : FVec Ideal ⟨2, ![1, N]⟩ .f32)
    (hb : (⟨2, ![1, N]⟩ : Shape).Broadcasts ⟨2, ![M, N]⟩) (r : Fin M) (j : Fin N) :
    addf (matmul D none A B (constant (F := Ideal) ⟨2, ![M, N]⟩ .f32 0x00000000#32)) (broadcastTo ⟨2, ![M, N]⟩ bias hb) (ix2 r j)
      = dense (mat B) (rowOf bias 0) (rowOf A r) j := by
  show FloatOps.matmul D none A B (constant (F := Ideal) ⟨2, ![M, N]⟩ .f32 0x00000000#32) (ix2 r j)
      + broadcastTo ⟨2, ![M, N]⟩ bias hb (ix2 r j)
    = (∑ q : Fin K, A (ix2 r q) * B (ix2 j q)) + bias (ix2 0 j)
  rw [LibMatmulNT.matmul_zero_at D hlc hrc hlb hrb hln hrn, broadcastTo_1b_ab_apply]

/-- The exponentials of a block of logits less their rows' maxima, at an entry. -/
theorem expShiftVec_at {M : ℕ} (L : FVec Ideal ⟨2, ![M, 64]⟩ .f32)
    (hr : (⟨2, ![M, 64]⟩ : Shape).Reduces [1] ⟨1, ![M]⟩) (hφ : FKind.Formats .f32) (hacc : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, 64]⟩) (r : Fin M) (e : Fin 64) :
    exp (subf L (broadcastTo ⟨2, ![M, 64]⟩ (shapeCast ⟨2, ![M, 1]⟩ (multiReduction .maximumf [1] ⟨1, ![M]⟩ L 0xFF800000#32 hr hφ hacc) hc) hb)) (ix2 r e)
      = expShift (rowOf L r) e := by
  show Ideal.exp (L (ix2 r e) - broadcastTo ⟨2, ![M, 64]⟩ (shapeCast ⟨2, ![M, 1]⟩ (multiReduction .maximumf [1] ⟨1, ![M]⟩ L 0xFF800000#32 hr hφ hacc) hc) hb (ix2 r e))
    = Ideal.exp (L (ix2 r e) - (Finset.univ : Finset (Fin 64)).fold max negInfW (fun c => L (ix2 r c)))
  rw [broadcastTo_a1_ab_apply, shapeCast_a_a1_apply, rowMax_apply]

/-- The softmax of a block of logits as the body writes it, at an entry: the softmax of that row. -/
theorem softmaxVec_at {M : ℕ} (L : FVec Ideal ⟨2, ![M, 64]⟩ .f32)
    (hr : (⟨2, ![M, 64]⟩ : Shape).Reduces [1] ⟨1, ![M]⟩) (hφ : FKind.Formats .f32) (hacc : (0xFF800000#32 : BitVec 32) = FKind.maximumf.neutral .f32 hφ)
    (hφ' : FKind.Formats .f32) (hacc' : (0x00000000#32 : BitVec 32) = FKind.add.neutral .f32 hφ')
    (hc : (⟨1, ![M]⟩ : Shape).ShapeCasts ⟨2, ![M, 1]⟩) (hb : (⟨2, ![M, 1]⟩ : Shape).Broadcasts ⟨2, ![M, 64]⟩) (r : Fin M) (e : Fin 64) :
    divf (exp (subf L (broadcastTo ⟨2, ![M, 64]⟩ (shapeCast ⟨2, ![M, 1]⟩ (multiReduction .maximumf [1] ⟨1, ![M]⟩ L 0xFF800000#32 hr hφ hacc) hc) hb)))
        (broadcastTo ⟨2, ![M, 64]⟩ (shapeCast ⟨2, ![M, 1]⟩ (multiReduction .add [1] ⟨1, ![M]⟩
          (exp (subf L (broadcastTo ⟨2, ![M, 64]⟩ (shapeCast ⟨2, ![M, 1]⟩ (multiReduction .maximumf [1] ⟨1, ![M]⟩ L 0xFF800000#32 hr hφ hacc) hc) hb)))
          0x00000000#32 hr hφ' hacc') hc) hb) (ix2 r e)
      = softmax (rowOf L r) e := by
  show Ideal.div (exp (subf L (broadcastTo ⟨2, ![M, 64]⟩ (shapeCast ⟨2, ![M, 1]⟩ (multiReduction .maximumf [1] ⟨1, ![M]⟩ L 0xFF800000#32 hr hφ hacc) hc) hb)) (ix2 r e))
      (broadcastTo ⟨2, ![M, 64]⟩ (shapeCast ⟨2, ![M, 1]⟩ (multiReduction .add [1] ⟨1, ![M]⟩
          (exp (subf L (broadcastTo ⟨2, ![M, 64]⟩ (shapeCast ⟨2, ![M, 1]⟩ (multiReduction .maximumf [1] ⟨1, ![M]⟩ L 0xFF800000#32 hr hφ hacc) hc) hb)))
          0x00000000#32 hr hφ' hacc') hc) hb (ix2 r e))
    = Ideal.div (expShift (rowOf L r) e) (∑ e' : Fin 64, expShift (rowOf L r) e')
  rw [broadcastTo_a1_ab_apply, shapeCast_a_a1_apply, rowSum_apply, expShiftVec_at L hr hφ hacc hc hb r e]
  exact congrArg _ (Finset.sum_congr rfl fun c _ => expShiftVec_at L hr hφ hacc hc hb r c)

/-- The value head on a block of rows, at an entry: the hidden row against the one weight row, plus the bias. -/
theorem headVec_at {M K : ℕ} (H : FVec Ideal ⟨2, ![M, K]⟩ .f32) (w : FVec Ideal ⟨2, ![1, K]⟩ .f32) (b : FVec Ideal ⟨2, ![1, 1]⟩ .f32)
    (hbw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (hbb : (⟨2, ![1, 1]⟩ : Shape).Broadcasts ⟨2, ![M, 1]⟩) (r : Fin M) :
    addf (shapeCast ⟨2, ![M, 1]⟩ (multiReduction .add [1] ⟨1, ![M]⟩ (mulf H (broadcastTo ⟨2, ![M, K]⟩ w hbw)) 0x00000000#32 hr hφ hacc) hc)
        (broadcastTo ⟨2, ![M, 1]⟩ b hbb) (ix2 r (0 : Fin 1))
      = dense (mat w) (rowOf b 0) (rowOf H r) 0 := by
  show shapeCast ⟨2, ![M, 1]⟩ (multiReduction .add [1] ⟨1, ![M]⟩ (mulf H (broadcastTo ⟨2, ![M, K]⟩ w hbw)) 0x00000000#32 hr hφ hacc) hc (ix2 r (0 : Fin 1))
      + broadcastTo ⟨2, ![M, 1]⟩ b hbb (ix2 r (0 : Fin 1))
    = (∑ q : Fin K, H (ix2 r q) * w (ix2 0 q)) + b (ix2 0 0)
  rw [shapeCast_a_a1_apply, rowSum_apply, broadcastTo_1b_ab_apply]
  refine congrArg (· + b (ix2 0 0)) (Finset.sum_congr rfl fun q _ => ?_)
  show H (ix2 r q) * broadcastTo ⟨2, ![M, K]⟩ w hbw (ix2 r q) = _
  rw [broadcastTo_1b_ab_apply]

/-! ## The body's three values -/

open Cert.KernelIdeal Cert.KernelIdeal.Gen

/-- The second hidden layer the body computes, at `(r, j)`: entry `j` of the hidden layer of row `r` of the state block. -/
theorem hidden_at (x0 : FVec Ideal S512x4096 .f32) (x1 : FVec Ideal S1024x4096 .bf16) (x2 : FVec Ideal S1x1024 .f32)
    (x3 : FVec Ideal S1024x1024 .bf16) (x4 : FVec Ideal S1x1024 .f32) (r : Fin 512) (j : Fin 1024) :
    k0_pay2 (F := Ideal) x0 x1 x2 x3 x4 (ix2 r j) = hidden (mat x1) (rowOf x2 0) (mat x3) (rowOf x4 0) (rowOf x0 r) j := by
  unfold k0_pay2 hidden
  simp only [shapeCast_self]
  refine (reluDense_at dot_S512x1024_S1024x1024_S512x1024_1_1_0_0_n_n rfl rfl rfl rfl rfl rfl _ x3 x4 _ r j).trans ?_
  refine congrArg (fun h => relu (dense (mat x3) (rowOf x4 0) h j)) (funext fun q => ?_)
  exact reluDense_at dot_S512x4096_S1024x4096_S512x1024_1_1_0_0_n_n rfl rfl rfl rfl rfl rfl _ x1 x2 _ r q

/-- The expert weights the body stores, at `(r, e)`: expert `e`'s weight for row `r` of the state block. -/
theorem weights_at (x0 : FVec Ideal S512x4096 .f32) (x1 : FVec Ideal S1024x4096 .bf16) (x2 : FVec Ideal S1x1024 .f32)
    (x3 : FVec Ideal S1024x1024 .bf16) (x4 : FVec Ideal S1x1024 .f32) (x5 : FVec Ideal S64x1024 .bf16) (x6 : FVec Ideal S1x64 .f32)
    (r : Fin 512) (e : Fin 64) :
    k0_pay3 (F := Ideal) x0 x1 x2 x3 x4 x5 x6 (ix2 r e)
      = weightsRow (mat x1) (rowOf x2 0) (mat x3) (rowOf x4 0) (mat x5) (rowOf x6 0) (rowOf x0 r) e := by
  unfold k0_pay3 weightsRow
  simp only [shapeCast_self]
  refine (softmaxVec_at _ _ _ _ _ _ _ _ r e).trans ?_
  refine congrArg (fun l => softmax l e) (funext fun c => ?_)
  refine (dense_at dot_S512x1024_S64x1024_S512x64_1_1_0_0_n_n rfl rfl rfl rfl rfl rfl _ x5 x6 _ r c).trans ?_
  exact congrArg (fun h => dense (mat x5) (rowOf x6 0) h c) (funext fun q => hidden_at x0 x1 x2 x3 x4 r q)

/-- The value the body stores, at `(r, 0)`: the value of row `r` of the state block. -/
theorem value_at (x0 : FVec Ideal S512x4096 .f32) (x1 : FVec Ideal S1024x4096 .bf16) (x2 : FVec Ideal S1x1024 .f32)
    (x3 : FVec Ideal S1024x1024 .bf16) (x4 : FVec Ideal S1x1024 .f32) (x7 : FVec Ideal S1x1024 .f32) (x8 : FVec Ideal S1x1 .f32)
    (r : Fin 512) :
    k0_pay1 (F := Ideal) (k0_pay2 (F := Ideal) x0 x1 x2 x3 x4) x7 x8 (ix2 r (0 : Fin 1))
      = valueRow (mat x1) (rowOf x2 0) (mat x3) (rowOf x4 0) (mat x7) (rowOf x8 0) (rowOf x0 r) := by
  unfold k0_pay1 valueRow
  simp only [shapeCast_self]
  refine (headVec_at _ x7 x8 _ _ _ _ _ _ r).trans ?_
  exact congrArg (fun h => dense (mat x7) (rowOf x8 0) h 0) (funext fun q => hidden_at x0 x1 x2 x3 x4 r q)

end Cert.Router.Kernel

end
-- ==== Proof.Blocks.lean ====
/-
  From blocks to arrays: what the kernel's program leaves in its two result arrays.

  The grid has 16 points. At point `t` the body sees rows `512 t … 512 t + 511` of the state and the weights and biases
  whole — the host casts the three weight matrices to bf16, which changes nothing on the extended reals, and reshapes
  the bias vectors to one-row matrices, whose row is the vector — and writes back rows `512 t … 512 t + 511` of the two
  results. By the row lemmas the block written at point `t` is the block of the specification's arrays over the same
  rows, and the 16 blocks cover the arrays, so after the run each result array is the specification's.
-/
import proofs.«150308_g3590592660266_cont_8to1_b_809_4_alg».proof.Proof.KernelIdealValue
import proofs.«150308_g3590592660266_cont_8to1_b_809_4_alg».proof.Proof.KernelRows
import Idealize.ShloMosaic.Lib.StableHlo.Run
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.Router.Blocks

open Cert.KernelIdeal Cert.KernelIdeal.Gen Cert.KernelIdeal.ValueP Cert.Router

variable (m : (ℓ : Loc nD τ sig) → Buf (Elt Ideal) ℓ) (ρ : Dev nD → PrngReg)

/-! ## The argument arrays, and what the region finds in each window's array -/

abbrev a0 (c : Dev nD) : S8192x4096.Idx → EReal := m ((c : Thread nD τ).loc main_arg0)
abbrev a1 (c : Dev nD) : S1024x4096.Idx → EReal := m ((c : Thread nD τ).loc main_arg1)
abbrev a2 (c : Dev nD) : S1024.Idx → EReal := m ((c : Thread nD τ).loc main_arg2)
abbrev a3 (c : Dev nD) : S1024x1024.Idx → EReal := m ((c : Thread nD τ).loc main_arg3)
abbrev a4 (c : Dev nD) : S1024.Idx → EReal := m ((c : Thread nD τ).loc main_arg4)
abbrev a5 (c : Dev nD) : S64x1024.Idx → EReal := m ((c : Thread nD τ).loc main_arg5)
abbrev a6 (c : Dev nD) : S64.Idx → EReal := m ((c : Thread nD τ).loc main_arg6)
abbrev a7 (c : Dev nD) : S1x1024.Idx → EReal := m ((c : Thread nD τ).loc main_arg7)
abbrev a8 (c : Dev nD) : S1.Idx → EReal := m ((c : Thread nD τ).loc main_arg8)

/-- The state is staged as launched. -/
theorem V_state (c : Dev nD) : (V m c main_arg0 : S8192x4096.Idx → EReal) = a0 m c := V_main_arg0 m c
/-- So is the value head's weight row. -/
theorem V_wv (c : Dev nD) : (V m c main_arg7 : S1x1024.Idx → EReal) = a7 m c := V_main_arg7 m c
/-- The first layer's weights, cast to bf16: the same extended reals. -/
theorem V_w1 (c : Dev nD) : (V m c main_v0 : S1024x4096.Idx → EReal) = a1 m c := by
  dsimp only [Gen.V, Gen.hostOps0]; after_results; rfl
/-- The second layer's weights likewise. -/
theorem V_w2 (c : Dev nD) : (V m c main_v1 : S1024x1024.Idx → EReal) = a3 m c := by
  dsimp only [Gen.V, Gen.hostOps0]; after_results; rfl
/-- The expert layer's weights likewise. -/
theorem V_we (c : Dev nD) : (V m c main_v2 : S64x1024.Idx → EReal) = a5 m c := by
  dsimp only [Gen.V, Gen.hostOps0]; after_results; rfl
/-- The first bias, reshaped to one row. -/
theorem V_b1 (c : Dev nD) : (V m c main_v3 : S1x1024.Idx → EReal) = shapeCast S1x1024 (a2 m c) shapeCasts_S1024_S1x1024 := by
  dsimp only [Gen.V, Gen.hostOps0]; after_results; rfl
/-- The second bias likewise. -/
theorem V_b2 (c : Dev nD) : (V m c main_v4 : S1x1024.Idx → EReal) = shapeCast S1x1024 (a4 m c) shapeCasts_S1024_S1x1024 := by
  dsimp only [Gen.V, Gen.hostOps0]; after_results; rfl
/-- The expert bias likewise. -/
theorem V_be (c : Dev nD) : (V m c main_v5 : S1x64.Idx → EReal) = shapeCast S1x64 (a6 m c) shapeCasts_S64_S1x64 := by
  dsimp only [Gen.V, Gen.hostOps0]; after_results; rfl
/-- The value bias likewise. -/
theorem V_bv (c : Dev nD) : (V m c main_v6 : S1x1.Idx → EReal) = shapeCast S1x1 (a8 m c) shapeCasts_S1_S1x1 := by
  dsimp only [Gen.V, Gen.hostOps0]; after_results; rfl

/-! ## The index maps over the grid -/

/-- Decided over the 16 points: the state's window and the two result windows move down the rows with the point, every
    other window stays at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem t_lt (t : Fin cfg0.N) : t.val < 16 := by have := t.isLt; have h : cfg0.N = 16 := N_0; omega

/-- Row `r` of the block at point `t` is row `512 t + r` of the array. -/
def rowAt (t : Fin cfg0.N) (r : Fin 512) : Fin 8192 := ⟨512 * t.val + r.val, by have := t_lt t; have := r.isLt; omega⟩

/-! ## Each window's block, read off its argument array -/

/-- The state's block at point `t`, at `(r, q)`: the state at `(512 t + r, q)`. -/
theorem state_blk (c : Dev nD) (t : Fin cfg0.N) (r : Fin 512) (q : Fin 4096) :
    (iblk m c 0 t : FVec Ideal S512x4096 .f32) (ix2 r q) = a0 m c (ix2 (rowAt t r) q) := by
  unfold iblk
  rw [View.read_apply]
  show V m c main_arg0 _ = a0 m c _
  rw [V_state m c]
  congr 1
  funext a
  apply Fin.ext
  obtain ⟨e0, e1, -⟩ := idx_facts t
  match a with
  | ⟨0, _⟩ => show win0_0.index t (0 : Fin 2) * 512 + 1 * r.val = 512 * t.val + r.val; rw [e0]; omega
  | ⟨1, _⟩ => show win0_0.index t (1 : Fin 2) * 4096 + 1 * q.val = q.val; rw [e1]; omega

/-- The first layer's weights are staged whole at every point. -/
theorem w1_blk (c : Dev nD) (t : Fin cfg0.N) (p : Fin 1024) (q : Fin 4096) :
    (iblk m c 1 t : FVec Ideal S1024x4096 .bf16) (ix2 p q) = a1 m c (ix2 p q) := by
  unfold iblk
  rw [View.read_apply]
  show V m c main_v0 _ = a1 m c _
  rw [V_w1 m c]
  congr 1
  funext a
  apply Fin.ext
  obtain ⟨-, -, -, -, -, -, e0, e1, -⟩ := idx_facts t
  match a with
  | ⟨0, _⟩ => show win0_1.index t (0 : Fin 2) * 1024 + 1 * p.val = p.val; rw [e0]; omega
  | ⟨1, _⟩ => show win0_1.index t (1 : Fin 2) * 4096 + 1 * q.val = q.val; rw [e1]; omega

/-- The second layer's weights likewise. -/
theorem w2_blk (c : Dev nD) (t : Fin cfg0.N) (p : Fin 1024) (q : Fin 1024) :
    (iblk m c 3 t : FVec Ideal S1024x1024 .bf16) (ix2 p q) = a3 m c (ix2 p q) := by
  unfold iblk
  rw [View.read_apply]
  show V m c main_v1 _ = a3 m c _
  rw [V_w2 m c]
  congr 1
  funext a
  apply Fin.ext
  obtain ⟨-, -, -, -, -, -, -, -, -, -, e0, e1, -⟩ := idx_facts t
  match a with
  | ⟨0, _⟩ => show win0_3.index t (0 : Fin 2) * 1024 + 1 * p.val = p.val; rw [e0]; omega
  | ⟨1, _⟩ => show win0_3.index t (1 : Fin 2) * 1024 + 1 * q.val = q.val; rw [e1]; omega

/-- The expert layer's weights likewise. -/
theorem we_blk (c : Dev nD) (t : Fin cfg0.N) (p : Fin 64) (q : Fin 1024) :
    (iblk m c 5 t : FVec Ideal S64x1024 .bf16) (ix2 p q) = a5 m c (ix2 p q) := by
  unfold iblk
  rw [View.read_apply]
  show V m c main_v2 _ = a5 m c _
  rw [V_we m c]
  congr 1
  funext a
  apply Fin.ext
  obtain ⟨-, -, -, -, -, -, -, -, -, -, -, -, -, -, e0, e1, -⟩ := idx_facts t
  match a with
  | ⟨0, _⟩ => show win0_5.index t (0 : Fin 2) * 64 + 1 * p.val = p.val; rw [e0]; omega
  | ⟨1, _⟩ => show win0_5.index t (1 : Fin 2) * 1024 + 1 * q.val = q.val; rw [e1]; omega

/-- The value head's weight row likewise. -/
theorem wv_blk (c : Dev nD) (t : Fin cfg0.N) (p : Fin 1) (q : Fin 1024) :
    (iblk m c 7 t : FVec Ideal S1x1024 .f32) (ix2 p q) = a7 m c (ix2 p q) := by
  unfold iblk
  rw [View.read_apply]
  show V m c main_arg7 _ = a7 m c _
  rw [V_wv m c]
  congr 1
  funext a
  apply Fin.ext
  obtain ⟨-, -, -, -, -, -, -, -, -, -, -, -, -, -, -, -, -, -, e0, e1, -⟩ := idx_facts t
  match a with
  | ⟨0, _⟩ => show win0_7.index t (0 : Fin 2) * 1 + 1 * p.val = p.val; rw [e0]; omega
  | ⟨1, _⟩ => show win0_7.index t (1 : Fin 2) * 1024 + 1 * q.val = q.val; rw [e1]; omega

/-- The first bias is staged whole as one row: at `(0, p)` it is the bias at `p`. -/
theorem b1_blk (c : Dev nD) (t : Fin cfg0.N) (p : Fin 1024) :
    (iblk m c 2 t : FVec Ideal S1x1024 .f32) (ix2 (0 : Fin 1) p) = a2 m c (ix1 p) := by
  unfold iblk
  rw [View.read_apply]
  show V m c main_v3 _ = a2 m c _
  rw [V_b1 m c]
  refine (congrArg (shapeCast S1x1024 (a2 m c) shapeCasts_S1024_S1x1024) ?_).trans
    (shapeCast_a_1a_apply (a2 m c) shapeCasts_S1024_S1x1024 (0 : Fin 1) p)
  funext a
  apply Fin.ext
  obtain ⟨-, -, -, -, -, -, -, -, e0, e1, -⟩ := idx_facts t
  match a with
  | ⟨0, _⟩ => show win0_2.index t (0 : Fin 2) * 1 + 1 * 0 = 0; rw [e0]
  | ⟨1, _⟩ => show win0_2.index t (1 : Fin 2) * 1024 + 1 * p.val = p.val; rw [e1]; omega

/-- The second bias likewise. -/
theorem b2_blk (c : Dev nD) (t : Fin cfg0.N) (p : Fin 1024) :
    (iblk m c 4 t : FVec Ideal S1x1024 .f32) (ix2 (0 : Fin 1) p) = a4 m c (ix1 p) := by
  unfold iblk
  rw [View.read_apply]
  show V m c main_v4 _ = a4 m c _
  rw [V_b2 m c]
  refine (congrArg (shapeCast S1x1024 (a4 m c) shapeCasts_S1024_S1x1024) ?_).trans
    (shapeCast_a_1a_apply (a4 m c) shapeCasts_S1024_S1x1024 (0 : Fin 1) p)
  funext a
  apply Fin.ext
  obtain ⟨-, -, -, -, -, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 1024 + 1 * p.val = p.val; rw [e1]; omega

/-- The expert bias likewise. -/
theorem be_blk (c : Dev nD) (t : Fin cfg0.N) (p : Fin 64) :
    (iblk m c 6 t : FVec Ideal S1x64 .f32) (ix2 (0 : Fin 1) p) = a6 m c (ix1 p) := by
  unfold iblk
  rw [View.read_apply]
  show V m c main_v5 _ = a6 m c _
  rw [V_be m c]
  refine (congrArg (shapeCast S1x64 (a6 m c) shapeCasts_S64_S1x64) ?_).trans
    (shapeCast_a_1a_apply (a6 m c) shapeCasts_S64_S1x64 (0 : Fin 1) p)
  funext a
  apply Fin.ext
  obtain ⟨-, -, -, -, -, -, -, -, -, -, -, -, -, -, -, -, e0, e1, -⟩ := idx_facts t
  match a with
  | ⟨0, _⟩ => show win0_6.index t (0 : Fin 2) * 1 + 1 * 0 = 0; rw [e0]
  | ⟨1, _⟩ => show win0_6.index t (1 : Fin 2) * 64 + 1 * p.val = p.val; rw [e1]; omega

/-- The value bias likewise. -/
theorem bv_blk (c : Dev nD) (t : Fin cfg0.N) (p : Fin 1) :
    (iblk m c 8 t : FVec Ideal S1x1 .f32) (ix2 (0 : Fin 1) p) = a8 m c (ix1 p) := by
  unfold iblk
  rw [View.read_apply]
  show V m c main_v6 _ = a8 m c _
  rw [V_bv m c]
  refine (congrArg (shapeCast S1x1 (a8 m c) shapeCasts_S1_S1x1) ?_).trans
    (shapeCast_a_1a_apply (a8 m c) shapeCasts_S1_S1x1 (0 : Fin 1) p)
  funext a
  apply Fin.ext
  obtain ⟨-, -, -, -, -, -, -, -, -, -, -, -, -, -, -, -, -, -, -, -, e0, e1⟩ := idx_facts t
  match a with
  | ⟨0, _⟩ => show win0_8.index t (0 : Fin 2) * 1 + 1 * 0 = 0; rw [e0]
  | ⟨1, _⟩ => show win0_8.index t (1 : Fin 2) * 1 + 1 * p.val = p.val; rw [e1]; omega

/-! ## The blocks as matrices, vectors and rows -/

theorem mat_w1 (c : Dev nD) (t : Fin cfg0.N) : mat (iblk m c 1 t : FVec Ideal S1024x4096 .bf16) = mat (a1 m c) :=
  funext fun p => funext fun q => w1_blk m c t p q
theorem mat_w2 (c : Dev nD) (t : Fin cfg0.N) : mat (iblk m c 3 t : FVec Ideal S1024x1024 .bf16) = mat (a3 m c) :=
  funext fun p => funext fun q => w2_blk m c t p q
theorem mat_we (c : Dev nD) (t : Fin cfg0.N) : mat (iblk m c 5 t : FVec Ideal S64x1024 .bf16) = mat (a5 m c) :=
  funext fun p => funext fun q => we_blk m c t p q
theorem mat_wv (c : Dev nD) (t : Fin cfg0.N) : mat (iblk m c 7 t : FVec Ideal S1x1024 .f32) = mat (a7 m c) :=
  funext fun p => funext fun q => wv_blk m c t p q
theorem row_b1 (c : Dev nD) (t : Fin cfg0.N) : rowOf (iblk m c 2 t : FVec Ideal S1x1024 .f32) 0 = vec (a2 m c) :=
  funext fun p => b1_blk m c t p
theorem row_b2 (c : Dev nD) (t : Fin cfg0.N) : rowOf (iblk m c 4 t : FVec Ideal S1x1024 .f32) 0 = vec (a4 m c) :=
  funext fun p => b2_blk m c t p
theorem row_be (c : Dev nD) (t : Fin cfg0.N) : rowOf (iblk m c 6 t : FVec Ideal S1x64 .f32) 0 = vec (a6 m c) :=
  funext fun p => be_blk m c t p
theorem row_bv (c : Dev nD) (t : Fin cfg0.N) : rowOf (iblk m c 8 t : FVec Ideal S1x1 .f32) 0 = vec (a8 m c) :=
  funext fun p => bv_blk m c t p
theorem row_state (c : Dev nD) (t : Fin cfg0.N) (r : Fin 512) :
    rowOf (iblk m c 0 t : FVec Ideal S512x4096 .f32) r = rowOf (a0 m c) (rowAt t r) :=
  funext fun q => state_blk m c t r q

/-! ## What each point writes back -/

theorem hz : (![0, 0] : Fin 2 → Nat) = fun _ => 0 := funext fun a => by fin_cases a <;> rfl

/-- The expert-weights array of the specification, of the argument arrays. -/
abbrev G9 (c : Dev nD) : S8192x64.Idx → EReal :=
  expertWeights (a0 m c) (a1 m c) (a2 m c) (a3 m c) (a4 m c) (a5 m c) (a6 m c)
/-- The value array of the specification, of the argument arrays. -/
abbrev G10 (c : Dev nD) : S8192x1.Idx → EReal :=
  stateValue (a0 m c) (a1 m c) (a2 m c) (a3 m c) (a4 m c) (a7 m c) (a8 m c)

/-- Point `t` writes back, to the expert-weights array, rows `512 t … 512 t + 511` of the specification's. -/
theorem flushed9_eq (c : Dev nD) (t : Fin cfg0.N) :
    (dats m 0 c).flushed 9 t = ((cfg0.win 9).blk t).view.read (Elt Ideal) (G9 m c) := by
  rw [flushed9]
  unfold out0_9
  rw [View.canon_unit_zero hz]
  simp only [View.ld_unit_zero (S := S512x4096) hz, View.ld_unit_zero (S := S1024x4096) hz, View.ld_unit_zero (S := S1x1024) hz,
    View.ld_unit_zero (S := S1024x1024) hz, View.ld_unit_zero (S := S64x1024) hz, View.ld_unit_zero (S := S1x64) hz]
  funext y
  obtain ⟨r, e, rfl⟩ : ∃ (r : Fin 512) (e : Fin 64), y = ix2 r e := ⟨y 0, y 1, eq_ix2 y⟩
  rw [View.read_apply]
  have hemb : ((cfg0.win 9).blk t).view.emb (ix2 r e) = ix2 (rowAt t r) e := by
    funext a
    apply Fin.ext
    obtain ⟨-, -, e0, e1, -⟩ := idx_facts t
    match a with
    | ⟨0, _⟩ => show win0_9.index t (0 : Fin 2) * 512 + 1 * r.val = 512 * t.val + r.val; rw [e0]; omega
    | ⟨1, _⟩ => show win0_9.index t (1 : Fin 2) * 64 + 1 * e.val = e.val; rw [e1]; omega
  rw [hemb]
  show k0_pay3 (F := Ideal) (iblk m c 0 t : FVec Ideal S512x4096 .f32) (iblk m c 1 t : FVec Ideal S1024x4096 .bf16)
      (iblk m c 2 t : FVec Ideal S1x1024 .f32) (iblk m c 3 t : FVec Ideal S1024x1024 .bf16) (iblk m c 4 t : FVec Ideal S1x1024 .f32)
      (iblk m c 5 t : FVec Ideal S64x1024 .bf16) (iblk m c 6 t : FVec Ideal S1x64 .f32) (ix2 r e)
    = weightsRow (mat (a1 m c)) (vec (a2 m c)) (mat (a3 m c)) (vec (a4 m c)) (mat (a5 m c)) (vec (a6 m c)) (rowOf (a0 m c) (rowAt t r)) e
  rw [Kernel.weights_at, mat_w1, row_b1, mat_w2, row_b2, mat_we, row_be, row_state]

/-- Point `t` writes back, to the value array, rows `512 t … 512 t + 511` of the specification's. -/
theorem flushed10_eq (c : Dev nD) (t : Fin cfg0.N) :
    (dats m 0 c).flushed 10 t = ((cfg0.win 10).blk t).view.read (Elt Ideal) (G10 m c) := by
  rw [flushed10]
  unfold out0_10
  rw [View.canon_unit_zero hz]
  simp only [View.ld_unit_zero (S := S512x4096) hz, View.ld_unit_zero (S := S1024x4096) hz, View.ld_unit_zero (S := S1x1024) hz,
    View.ld_unit_zero (S := S1024x1024) hz, View.ld_unit_zero (S := S1x1) hz]
  funext y
  obtain ⟨r, u, rfl⟩ : ∃ (r : Fin 512) (u : Fin 1), y = ix2 r u := ⟨y 0, y 1, eq_ix2 y⟩
  obtain rfl : u = 0 := Subsingleton.elim _ _
  rw [View.read_apply]
  have hemb : ((cfg0.win 10).blk t).view.emb (ix2 r (0 : Fin 1)) = ix2 (rowAt t r) (0 : Fin 1) := by
    funext a
    apply Fin.ext
    obtain ⟨-, -, -, -, e0, e1, -⟩ := idx_facts t
    match a with
    | ⟨0, _⟩ => show win0_10.index t (0 : Fin 2) * 512 + 1 * r.val = 512 * t.val + r.val; rw [e0]; omega
    | ⟨1, _⟩ => show win0_10.index t (1 : Fin 2) * 1 + 1 * 0 = 0; rw [e1]
  rw [hemb]
  show k0_pay1 (F := Ideal) (k0_pay2 (F := Ideal) (iblk m c 0 t : FVec Ideal S512x4096 .f32) (iblk m c 1 t : FVec Ideal S1024x4096 .bf16)
      (iblk m c 2 t : FVec Ideal S1x1024 .f32) (iblk m c 3 t : FVec Ideal S1024x1024 .bf16) (iblk m c 4 t : FVec Ideal S1x1024 .f32))
      (iblk m c 7 t : FVec Ideal S1x1024 .f32) (iblk m c 8 t : FVec Ideal S1x1 .f32) (ix2 r (0 : Fin 1))
    = valueRow (mat (a1 m c)) (vec (a2 m c)) (mat (a3 m c)) (vec (a4 m c)) (mat (a7 m c)) (vec (a8 m c)) (rowOf (a0 m c) (rowAt t r))
  rw [Kernel.value_at, mat_w1, row_b1, mat_w2, row_b2, mat_wv, row_bv, row_state]

/-! ## The blocks cover the arrays -/

/-- An index of the expert-weights array is in point `t`'s block iff each coordinate is in the block's range. -/
theorem mem_blk9 (t : Fin cfg0.N) (i : S8192x64.Idx) :
    i ∈ ((cfg0.win 9).blk t).view.set ↔ ∀ a : Fin 2, win0_9.index t a * S512x64.size a ≤ (i a).val ∧ (i a).val < win0_9.index t a * S512x64.size a + S512x64.size a := by
  show i ∈ ((View.whole main_v7_0).slice (win0_9.rect t)).set ↔ _
  rw [View.set_slice_whole, Rect.mem_set_unit]
  exact Iff.rfl

theorem mem_blk10 (t : Fin cfg0.N) (i : S8192x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v7_1).slice (win0_10.rect t)).set ↔ _
  rw [View.set_slice_whole, Rect.mem_set_unit]
  exact Iff.rfl

/-- Row `R` of the expert-weights array is written by point `R / 512`. -/
theorem cover9 (i : S8192x64.Idx) : ∃ t : Fin cfg0.N, (cfg0.win 9).flush t = true ∧ i ∈ ((cfg0.win 9).blk t).view.set := by
  have hi0 : (i 0).val < 8192 := (i 0).isLt
  have hi1 : (i 1).val < 64 := (i 1).isLt
  have hN : cfg0.N = 16 := N_0
  obtain ⟨t, ht⟩ : ∃ t : Fin cfg0.N, t.val = (i 0).val / 512 := ⟨⟨(i 0).val / 512, by rw [hN]; omega⟩, rfl⟩
  refine ⟨t, flush0_9 t, ?_⟩
  rw [mem_blk9]
  obtain ⟨-, -, e0, e1, -⟩ := idx_facts t
  intro a
  match a with
  | ⟨0, _⟩ => show win0_9.index t (0 : Fin 2) * 512 ≤ (i 0).val ∧ (i 0).val < win0_9.index t (0 : Fin 2) * 512 + 512; rw [e0]; omega
  | ⟨1, _⟩ => show win0_9.index t (1 : Fin 2) * 64 ≤ (i 1).val ∧ (i 1).val < win0_9.index t (1 : Fin 2) * 64 + 64; rw [e1]; omega

/-- Row `R` of the value array is written by point `R / 512`. -/
theorem cover10 (i : S8192x1.Idx) : ∃ t : Fin cfg0.N, (cfg0.win 10).flush t = true ∧ i ∈ ((cfg0.win 10).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  refine ⟨t, flush0_10 t, ?_⟩
  rw [mem_blk10]
  obtain ⟨-, -, -, -, e0, e1, -⟩ := idx_facts t
  intro a
  match a with
  | ⟨0, _⟩ => show win0_10.index t (0 : Fin 2) * 512 ≤ (i 0).val ∧ (i 0).val < win0_10.index t (0 : Fin 2) * 512 + 512; rw [e0]; omega
  | ⟨1, _⟩ => show win0_10.index t (1 : Fin 2) * 1 ≤ (i 1).val ∧ (i 1).val < win0_10.index t (1 : Fin 2) * 1 + 1; rw [e1]; omega

/-! ## The result arrays after the run -/

/-- After the run the expert-weights array is the specification's. -/
theorem final9 (c : Dev nD) : (dats m 0 c).arrAt 9 cfg0.N = G9 m c :=
  (dats m 0 c).arrAt_eq_of_cover 9 (G9 m c) (fun t _ => flushed9_eq m c t) cover9

/-- After the run the value array is the specification's. -/
theorem final10 (c : Dev nD) : (dats m 0 c).arrAt 10 cfg0.N = G10 m c :=
  (dats m 0 c).arrAt_eq_of_cover 10 (G10 m c) (fun t _ => flushed10_eq m c t) cover10

/-- The kernel's run, read: both result arrays at the specification's arrays of the arguments, the arguments unchanged. -/
theorem run : θ_run defs (onTc (τ := τ) (main (F := Ideal))) ⟨m, fun _ => 0, ρ⟩ fun r => ∀ c : Dev nD,
      r.2.mem ((c : Thread nD τ).loc main_v7_0) = G9 m c
      ∧ r.2.mem ((c : Thread nD τ).loc main_v7_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (run_blocks m ρ)

end Cert.Router.Blocks

end
-- ==== Proof.RefRows.lean ====
/-
  The reference program, read row by row.

  Each stage of the reference is an array indexed by (row, unit). Reading the stages at an explicit pair of
  coordinates, every one of them is the matching function of a single row of the state: the first rectified dense
  layer, the second one, the logits, the row's largest logit, the shifted exponentials and their sum, and finally the
  softmax; the value head is one more dense layer on the second hidden layer. The transposes and broadcasts only move
  indices, so after the index bookkeeping both sides are the same sums, spelt the same way.
-/
import proofs.«150308_g3590592660266_cont_8to1_b_809_4_alg».proof.Proof.Gen.ReferenceIdeal.Read
import proofs.«150308_g3590592660266_cont_8to1_b_809_4_alg».proof.Proof.Spec

noncomputable section

open scoped BigOperators
open Idealize.ShloMosaic Idealize.ShloMosaic.TcCoe Idealize.SL.Sem

namespace Cert.Router.Ref

open Idealize.ShloMosaic.ValueIdx Cert.ReferenceIdeal Cert.ReferenceIdeal.Read

variable (x0 : (⟨Cert.ReferenceIdeal.S8192x4096, .f32⟩ : BufTy).Contents (Elt Ideal))
  (x1 : (⟨Cert.ReferenceIdeal.S1024x4096, .f32⟩ : BufTy).Contents (Elt Ideal))
  (x2 : (⟨Cert.ReferenceIdeal.S1024, .f32⟩ : BufTy).Contents (Elt Ideal))
  (x3 : (⟨Cert.ReferenceIdeal.S1024x1024, .f32⟩ : BufTy).Contents (Elt Ideal))
  (x4 : (⟨Cert.ReferenceIdeal.S1024, .f32⟩ : BufTy).Contents (Elt Ideal))
  (x5 : (⟨Cert.ReferenceIdeal.S64x1024, .f32⟩ : BufTy).Contents (Elt Ideal))
  (x6 : (⟨Cert.ReferenceIdeal.S64, .f32⟩ : BufTy).Contents (Elt Ideal))
  (x7 : (⟨Cert.ReferenceIdeal.S1x1024, .f32⟩ : BufTy).Contents (Elt Ideal))
  (x8 : (⟨Cert.ReferenceIdeal.S1, .f32⟩ : BufTy).Contents (Elt Ideal))

/-! ## The first hidden layer -/

/-- The left operand of the first contraction is read at (row, k). -/
theorem lidx_v1 (R : Fin 8192) (j : Fin 1024) (k : Fin 4096) : lidx_main_v1 (ix2 R j) k = ix2 R k :=
  funext fun a => Fin.ext (by match a with | ⟨0, _⟩ => rfl | ⟨1, _⟩ => rfl)

/-- The transposed weight is read at (unit, k): the contraction runs along the rows of the stored weights. -/
theorem ridx_v1 (R : Fin 8192) (j : Fin 1024) (k : Fin 4096) : idx_main_v0 (ridx_main_v1 (ix2 R j) k) = ix2 j k :=
  funext fun a => Fin.ext (by match a with | ⟨0, _⟩ => rfl | ⟨1, _⟩ => rfl)

/-- The bias, broadcast over the rows, is read at the unit. -/
theorem bidx_v3 (R : Fin 8192) (j : Fin 1024) : idx_main_v2 (idx_main_v3 (ix2 R j)) = ix1 j :=
  funext fun a => Fin.ext (by match a with | ⟨0, _⟩ => rfl)

/-- The first rectified layer at (row, unit). -/
theorem v5_at (R : Fin 8192) (j : Fin 1024) :
    val_main_v5 (F := Ideal) x0 x1 x2 (ix2 R j) = relu (dense (mat x1) (vec x2) (rowOf x0 R) j) := by
  rw [val_main_v5_apply, val_main_v4_apply, val_main_v1_apply, val_main_v3_apply, val_main_v2_apply,
    val_main_call0_v0_apply, val_main_call0_cst_apply, bidx_v3]
  simp only [val_main_v0_apply, lidx_v1, ridx_v1]
  rfl

/-! ## The second hidden layer -/

theorem lidx_v7 (R : Fin 8192) (j : Fin 1024) (k : Fin 1024) : lidx_main_v7 (ix2 R j) k = ix2 R k :=
  funext fun a => Fin.ext (by match a with | ⟨0, _⟩ => rfl | ⟨1, _⟩ => rfl)

theorem ridx_v7 (R : Fin 8192) (j : Fin 1024) (k : Fin 1024) : idx_main_v6 (ridx_main_v7 (ix2 R j) k) = ix2 j k :=
  funext fun a => Fin.ext (by match a with | ⟨0, _⟩ => rfl | ⟨1, _⟩ => rfl)

theorem bidx_v9 (R : Fin 8192) (j : Fin 1024) : idx_main_v8 (idx_main_v9 (ix2 R j)) = ix1 j :=
  funext fun a => Fin.ext (by match a with | ⟨0, _⟩ => rfl)

/-- The second rectified layer at (row, unit): the dense layer on the first one's row, rectified. -/
theorem v11_at (R : Fin 8192) (j : Fin 1024) :
    val_main_v11 (F := Ideal) x0 x1 x2 x3 x4 (ix2 R j)
      = hidden (mat x1) (vec x2) (mat x3) (vec x4) (rowOf x0 R) j := by
  rw [val_main_v11_apply, val_main_v10_apply, val_main_v7_apply, val_main_v9_apply, val_main_v8_apply,
    val_main_call1_v0_apply, val_main_call1_cst_apply, bidx_v9]
  simp only [val_main_v6_apply, lidx_v7, ridx_v7, v5_at]
  rfl

/-! ## The logits -/

theorem lidx_v13 (R : Fin 8192) (e : Fin 64) (k : Fin 1024) : lidx_main_v13 (ix2 R e) k = ix2 R k :=
  funext fun a => Fin.ext (by match a with | ⟨0, _⟩ => rfl | ⟨1, _⟩ => rfl)

theorem ridx_v13 (R : Fin 8192) (e : Fin 64) (k : Fin 1024) : idx_main_v12 (ridx_main_v13 (ix2 R e) k) = ix2 e k :=
  funext fun a => Fin.ext (by match a with | ⟨0, _⟩ => rfl | ⟨1, _⟩ => rfl)

theorem bidx_v15 (R : Fin 8192) (e : Fin 64) : idx_main_v14 (idx_main_v15 (ix2 R e)) = ix1 e :=
  funext fun a => Fin.ext (by match a with | ⟨0, _⟩ => rfl)

/-- The logit of expert `e` for row `R`: the expert layer on the row's second hidden layer. -/
theorem v16_at (R : Fin 8192) (e : Fin 64) :
    val_main_v16 (F := Ideal) x0 x1 x2 x3 x4 x5 x6 (ix2 R e)
      = dense (mat x5) (vec x6) (hidden (mat x1) (vec x2) (mat x3) (vec x4) (rowOf x0 R)) e := by
  rw [val_main_v16_apply, val_main_v13_apply, val_main_v15_apply, val_main_v14_apply, bidx_v15]
  simp only [val_main_v12_apply, lidx_v13, ridx_v13, v11_at]
  rfl

/-- The logits of row `R`. -/
abbrev logits (R : Fin 8192) : Fin 64 → EReal :=
  dense (mat x5) (vec x6) (hidden (mat x1) (vec x2) (mat x3) (vec x4) (rowOf x0 R))

/-! ## The row's largest logit -/

/-- The reduction over the expert axis at row `R` is the fold of `max` over the row's logits, from the
    minus-infinity word. -/
theorem v17_at (R : Fin 8192) :
    val_main_v17 (F := Ideal) x0 x1 x2 x3 x4 x5 x6 (ix1 R) = rowMax (logits x0 x1 x2 x3 x4 x5 x6 R) := by
  have h : S8192x64.Reduces [1] S8192 := by decide
  unfold val_main_v17
  rw [Host.reduce_eq_fold_single (FloatOps.maximumf (F := Ideal)) (val_main_v16 (F := Ideal) x0 x1 x2 x3 x4 x5 x6) _ _
    h _ (ix1 R)]
  unfold rowMax
  refine congrArg₂ (fun a b => (Finset.univ : Finset (Fin 64)).fold max a b) rfl ?_
  funext k
  exact (congrArg (val_main_v16 (F := Ideal) x0 x1 x2 x3 x4 x5 x6)
    (funext fun a => Fin.ext (by match a with | ⟨0, _⟩ => rfl | ⟨1, _⟩ => rfl))).trans
    (v16_at x0 x1 x2 x3 x4 x5 x6 R k)

/-- The reference takes the maximum with the minus-infinity word once more before using it; at row `R` it is
    still the row's largest logit. -/
theorem v19_at (R : Fin 8192) :
    val_main_v19 (F := Ideal) x0 x1 x2 x3 x4 x5 x6 (ix1 R) = rowMax (logits x0 x1 x2 x3 x4 x5 x6 R) := by
  rw [val_main_v19_apply, val_main_v18_apply, val_main_cst_0_apply, v17_at]
  exact max_negInfW_rowMax _

/-- The largest logit, broadcast back over the experts, is read at the row. -/
theorem bidx_v21 (R : Fin 8192) (e : Fin 64) : idx_main_v20 (idx_main_v21 (ix2 R e)) = ix1 R :=
  funext fun a => Fin.ext (by match a with | ⟨0, _⟩ => rfl)

/-! ## The softmax -/

/-- The shifted exponential of expert `e`'s logit at row `R`. -/
theorem v23_at (R : Fin 8192) (e : Fin 64) :
    val_main_v23 (F := Ideal) x0 x1 x2 x3 x4 x5 x6 (ix2 R e) = expShift (logits x0 x1 x2 x3 x4 x5 x6 R) e := by
  rw [val_main_v23_apply, val_main_v22_apply, val_main_v21_apply, val_main_v20_apply, bidx_v21, v19_at, v16_at]
  rfl

theorem sidx_v24 (R : Fin 8192) (k : Fin 64) : idx_main_v24 (ix1 R) k = ix2 R k :=
  funext fun a => Fin.ext (by match a with | ⟨0, _⟩ => rfl | ⟨1, _⟩ => rfl)

/-- The sum of the row's shifted exponentials: the sum starts from the zero word, which adds nothing. -/
theorem v24_at (R : Fin 8192) :
    val_main_v24 (F := Ideal) x0 x1 x2 x3 x4 x5 x6 (ix1 R)
      = ∑ e' : Fin 64, expShift (logits x0 x1 x2 x3 x4 x5 x6 R) e' := by
  rw [val_main_v24_apply, val_main_cst_1_apply]
  simp only [sidx_v24, v23_at]
  exact zeroW_add _

theorem bidx_v26 (R : Fin 8192) (e : Fin 64) : idx_main_v25 (idx_main_v26 (ix2 R e)) = ix1 R :=
  funext fun a => Fin.ext (by match a with | ⟨0, _⟩ => rfl)

/-- The expert weights at (row, expert): the softmax of the row's logits. -/
theorem v27_at (R : Fin 8192) (e : Fin 64) :
    val_main_v27 (F := Ideal) x0 x1 x2 x3 x4 x5 x6 (ix2 R e)
      = weightsRow (mat x1) (vec x2) (mat x3) (vec x4) (mat x5) (vec x6) (rowOf x0 R) e := by
  rw [val_main_v27_apply, val_main_v26_apply, val_main_v25_apply, bidx_v26, v24_at, v23_at]
  rfl

/-! ## The value head -/

theorem lidx_v29 (R : Fin 8192) (z : Fin 1) (k : Fin 1024) : lidx_main_v29 (ix2 R z) k = ix2 R k :=
  funext fun a => Fin.ext (by match a with | ⟨0, _⟩ => rfl | ⟨1, _⟩ => rfl)

theorem ridx_v29 (R : Fin 8192) (k : Fin 1024) :
    idx_main_v28 (ridx_main_v29 (ix2 R (0 : Fin 1)) k) = ix2 (0 : Fin 1) k :=
  funext fun a => Fin.ext (by match a with | ⟨0, _⟩ => rfl | ⟨1, _⟩ => rfl)

theorem bidx_v31 (R : Fin 8192) : idx_main_v30 (idx_main_v31 (ix2 R (0 : Fin 1))) = ix1 (0 : Fin 1) :=
  funext fun a => Fin.ext (by match a with | ⟨0, _⟩ => rfl)

/-- The value of row `R`: the value layer on the row's second hidden layer. -/
theorem v32_at (R : Fin 8192) :
    val_main_v32 (F := Ideal) x0 x1 x2 x3 x4 x7 x8 (ix2 R (0 : Fin 1))
      = valueRow (mat x1) (vec x2) (mat x3) (vec x4) (mat x7) (vec x8) (rowOf x0 R) := by
  rw [val_main_v32_apply, val_main_v29_apply, val_main_v31_apply, val_main_v30_apply, bidx_v31]
  simp only [val_main_v28_apply, lidx_v29, ridx_v29, v11_at]
  rfl

/-! ## The two result arrays -/

theorem weights_eq (x0 : (⟨Cert.ReferenceIdeal.S8192x4096, .f32⟩ : BufTy).Contents (Elt Ideal)) (x1 : (⟨Cert.ReferenceIdeal.S1024x4096, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) :
    Cert.ReferenceIdeal.Read.val_main_v27 (F := Ideal) x0 x1 x2 x3 x4 x5 x6 = Cert.Router.expertWeights x0 x1 x2 x3 x4 x5 x6 := by
  funext i
  obtain ⟨R, e, rfl⟩ : ∃ (R : Fin 8192) (e : Fin 64), i = ix2 R e := ⟨i 0, i 1, eq_ix2 i⟩
  rw [v27_at]
  rfl

theorem value_eq (x0 : (⟨Cert.ReferenceIdeal.S8192x4096, .f32⟩ : BufTy).Contents (Elt Ideal)) (x1 : (⟨Cert.ReferenceIdeal.S1024x4096, .f32⟩ : BufTy).Contents (Elt Ideal)) (x2 : (⟨Cert.ReferenceIdeal.S1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x7 : (⟨Cert.ReferenceIdeal.S1x1024, .f32⟩ : BufTy).Contents (Elt Ideal)) (x8 : (⟨Cert.ReferenceIdeal.S1, .f32⟩ : BufTy).Contents (Elt Ideal)) :
    Cert.ReferenceIdeal.Read.val_main_v32 (F := Ideal) x0 x1 x2 x3 x4 x7 x8 = Cert.Router.stateValue x0 x1 x2 x3 x4 x7 x8 := by
  funext i
  obtain ⟨R, z, rfl⟩ : ∃ (R : Fin 8192) (z : Fin 1), i = ix2 R z := ⟨i 0, i 1, eq_ix2 i⟩
  obtain rfl : z = 0 := Subsingleton.elim _ _
  rw [v32_at]
  rfl

end Cert.Router.Ref

end
-- ==== Proof.lean ====
/-
  The kernel and its reference compute the same router, over the extended reals.

  For every row `x` of the state both programs form `h = relu (W₂ · relu (W₁ · x + b₁) + b₂)`, the expert weights
  `softmax (Wₑ · h + bₑ)` and the value `Wᵥ · h + bᵥ` (Proof/Spec.lean). The kernel does it 512 rows at a time on a grid
  of 16 points, with the weights cast to bf16 — the identity on the extended reals — and the value head as a multiply
  and a sum along the row; the reference does it on all 8192 rows at once with transposed weights and `dot_general`.
  Row by row the kernel's stored values are the specification (Proof/KernelRows.lean), its 16 blocks cover the two
  result arrays (Proof/Blocks.lean), and the reference's stages read at a row are the specification too
  (Proof/RefRows.lean). No law of arithmetic beyond `0 + s = s` and `max (-∞) m = m` is used, so the finiteness of the
  inputs is never opened.

  The frames of the two kernel programs are the generated ones; the reference's frame is its run with the results
  dropped. The one rewrite the idealization made, a round trip f32 → bf16 → f32 of the hidden layer removed, is the
  library's statement of that rule.
-/
import proofs.«150308_g3590592660266_cont_8to1_b_809_4_alg».proof.Defs
import proofs.«150308_g3590592660266_cont_8to1_b_809_4_alg».proof.Proof.Gen.Kernel
import proofs.«150308_g3590592660266_cont_8to1_b_809_4_alg».proof.Proof.Gen.Kernel.Skeleton
import proofs.«150308_g3590592660266_cont_8to1_b_809_4_alg».proof.Proof.Gen.Kernel.Launch
import proofs.«150308_g3590592660266_cont_8to1_b_809_4_alg».proof.Proof.Gen.Kernel.Points
import proofs.«150308_g3590592660266_cont_8to1_b_809_4_alg».proof.Proof.Gen.Kernel.Frame
import proofs.«150308_g3590592660266_cont_8to1_b_809_4_alg».proof.Proof.Gen.KernelIdeal
import proofs.«150308_g3590592660266_cont_8to1_b_809_4_alg».proof.Proof.Gen.KernelIdeal.Skeleton
import proofs.«150308_g3590592660266_cont_8to1_b_809_4_alg».proof.Proof.Gen.KernelIdeal.Launch
import proofs.«150308_g3590592660266_cont_8to1_b_809_4_alg».proof.Proof.Gen.KernelIdeal.Points
import proofs.«150308_g3590592660266_cont_8to1_b_809_4_alg».proof.Proof.Gen.KernelIdeal.Frame
import proofs.«150308_g3590592660266_cont_8to1_b_809_4_alg».proof.Proof.Gen.ReferenceIdeal
import proofs.«150308_g3590592660266_cont_8to1_b_809_4_alg».proof.Proof.Gen.Pre_finite_inputs
import proofs.«150308_g3590592660266_cont_8to1_b_809_4_alg».proof.Proof.KernelIdealValue
import proofs.«150308_g3590592660266_cont_8to1_b_809_4_alg».proof.Proof.Gen.ReferenceIdeal.Run
import proofs.«150308_g3590592660266_cont_8to1_b_809_4_alg».proof.Proof.Gen.ReferenceIdeal.Read
import proofs.«150308_g3590592660266_cont_8to1_b_809_4_alg».proof.Proof.Blocks
import proofs.«150308_g3590592660266_cont_8to1_b_809_4_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The hidden layer rounded to bf16 and widened back is the hidden layer, on the extended reals. -/
theorem preserves : Cert.preserves_Kernel_KernelIdeal :=
  IdealRules.truncf_extf.statement _ .f32 .bf16

/-- Both programs end with the specification's two arrays of the arguments: the kernel by its blocks, the reference
    by its stages read row by row; the arguments agree. -/
theorem algebraic : Cert.algebraic_KernelIdeal_ReferenceIdeal := by
  intro m ρ m' ρ' _ hagree
  refine ⟨fun c => Cert.Router.Blocks.G9 m c, fun c => Cert.Router.Blocks.G10 m c, Cert.Router.Blocks.run m ρ, ?_⟩
  refine (θ_run Cert.ReferenceIdeal.defs _ _).mono (fun _ h c => ?_) (Cert.ReferenceIdeal.Value.run (F := Ideal) m' ρ')
  obtain ⟨e0, e1, e2, e3, e4, e5, e6, e7, e8⟩ := hagree c
  refine ⟨(h c).1.trans ?_, (h c).2.1.trans ?_, (h c).2.2⟩
  · rw [Cert.ReferenceIdeal.Read.val_main_v27_eq, Cert.Router.Ref.weights_eq, e0, e1, e2, e3, e4, e5, e6]
  · rw [Cert.ReferenceIdeal.Read.val_main_v32_eq, Cert.Router.Ref.value_eq, e0, e1, e2, e3, e4, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
